-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel

variable [Facts]

def fn {F : FTy → Type} [FloatOps F] (main_arg0 : FVec F S2000000x64 .f32) (main_arg1 : FVec F S2000000x64 .f32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  let main_v4 : FVec F S2000000x64 .f32 := Host.absf main_arg1
  let main_cst_0 : FVec F S_ .f32 := constant S_ .f32 0x7F800000#32
  let main_v5 : FVec F S2000000x64 .f32 := broadcastInDim S2000000x64 ![] bcast_S_S2000000x64 main_cst_0
  let main_v6 : IVec S2000000x64 1 := cmpf .olt main_v4 main_v5
  let main_c_1 : IVec S_ 1 := constantI S_ 1 1#1
  let main_v7 : IVec S_ 1 := (fun x v => Host.reduce IntOp.andi x v reducesTo_S2000000x64_S_d0_1 h_S_) main_v6 main_c_1
  let main_v8 : IVec S_ 1 := andi main_v3 main_v7
  main_v8
-- ==== Kernel.lean ====
abbrev S2000000x64 : Shape := ⟨2, ![2000000, 64]⟩
abbrev S1x1 : Shape := ⟨2, ![1, 1]⟩
abbrev S10000x64 : Shape := ⟨2, ![10000, 64]⟩
abbrev S10000 : Shape := ⟨1, ![10000]⟩
abbrev S1x10000 : Shape := ⟨2, ![1, 10000]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S2000000x64, .f32⟩
  | .hbm, ⟨1, _⟩ => ⟨S2000000x64, .f32⟩
  | .hbm, ⟨2, _⟩ => ⟨S1x1, .f32⟩
  | .hbm, ⟨3, _⟩ => ⟨S_, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S1x1, .f32⟩
  | .local _ .vmem, ⟨5, _⟩ => ⟨S1x1, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![200], ![false]⟩

def k0_cond2 (i : grid0.Coords) : BitVec 1 :=
  let arg0 : BitVec 32 := BitVec.ofNat 32 (i 0).val
  let c199_i32 : BitVec 32 := 199#32
  let v19 : BitVec 1 := Scalar.cmpi .eq arg0 c199_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x64_S10000x64_0_0 : ∀ a, (![0, 0] : Fin 2 → Nat) a + S10000x64.size a ≤ S10000x64.size a
  h_S10000x64 : 0 < S10000x64.numel
  reduces_S10000x64_S10000 : S10000x64.Reduces [1] S10000
  shapeCasts_S10000_S1x10000 : S10000.ShapeCasts S1x10000
  reduces_S1x10000_S1 : S1x10000.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S2000000x64.size a
  hwx0_0 : ∀ i : grid0.Coords, EltTy.bits .f32 = 32 ∨ (Rect.block (s := S2000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S2000000x64.size a
  hwx0_1 : ∀ i : grid0.Coords, EltTy.bits .f32 = 32 ∨ (Rect.block (s := S2000000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2000000x64 : Shape := ⟨2, ![2000000, 64]⟩
abbrev S_ : Shape := ⟨0, ![]⟩
abbrev S2000000 : Shape := ⟨1, ![2000000]⟩

abbrev nBuf : Space → Nat
  | .hbm => 11
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S2000000x64, .f32⟩
  | .hbm, ⟨2, _⟩ => ⟨S2000000x64, .f32⟩
  | .hbm, ⟨3, _⟩ => ⟨S2000000x64, .f32⟩
  | .hbm, ⟨4, _⟩ => ⟨S_, .f32⟩
  | .hbm, ⟨5, _⟩ => ⟨S2000000, .f32⟩
  | .hbm, ⟨6, _⟩ => ⟨S2000000, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  reducesTo_S2000000x64_S2000000_d1 : S2000000x64.ReducesTo [1] S2000000
  h_S_ : 0 < S_.numel
  reducesTo_S2000000_S_d0 : S2000000.ReducesTo [0] S_

variable [Facts₀]

class Facts : Prop extends Facts₀ where

variable [Facts]
-- ==== Proof.Pieces.lean ====
/-
  What one run of the kernel body leaves behind, as values, at any float instance.

  The body keeps a running total in a one-entry scratch. Write `step x₀ x₁ s` for the body's update of the
  scratch: the scratch's old entry `s` plus the block's contribution computed from the two input blocks
  `x₀`, `x₁` (the term `k0_pay2`).
    · At the first grid point the body first stores the zero entry (`k0_pay1`), reads it back, and then updates:
      the scratch ends at `step x₀ x₁ 0`.
    · At every later point the scratch ends at `step x₀ x₁ s`, `s` what the point before left.
    · At the last point the body moreover reads the updated scratch back and stores its quotient by the row count
      (`k0_pay3`) into the output block: the output ends at `k0_pay3 (step x₀ x₁ s)`.
  Each is read off the covering list of stores the run found: the last store through the whole one-entry
  rectangle wins, and a load after a store through the same rectangle reads that store's value.
-/
import proofs.«161028_j78434692760202_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

/-- The offset of every load and store of the body: the origin. -/
theorem origin : (![0, 0] : Fin 2 → Nat) = fun _ => 0 := funext fun a => by fin_cases a <;> rfl

/-- A middle point: the scratch ends at the update of what the point before left. -/
theorem scratch_mid (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S10000x64 .f32) (x1 : Vec F S10000x64 .f32) (xs0 : Vec F S1x1 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero origin]
  simp only [View.readAt_eq_ld, harg1.read_unread, harg2.read_unread, harg4.read_unread,
    View.ld_unit_zero (S := S10000x64) origin, View.ld_unit_zero (S := S1x1) origin]

/-- The first point: the scratch ends at the update of the zero entry just stored. -/
theorem scratch_first (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S10000x64 .f32) (x1 : Vec F S10000x64 .f32) :
    sout0_A_0 c i arg1 harg1 arg2 harg2 arg3 harg3 arg4 harg4 hc0 hc1 x0 x1 = k0_pay2 x0 x1 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) origin, View.readCov_unit_zero (S := S1x1) _ origin]
  simp only [View.readAt_eq_ld, harg1.read_unread, harg2.read_unread, View.ld_unit_zero (S := S10000x64) origin]

/-- The last point: the scratch ends at the update of what the point before left, -/
theorem scratch_last (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x64 .f32) (x1 : Vec F S10000x64 .f32) (xs0 : Vec F S1x1 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero origin]
  simp only [View.readAt_eq_ld, harg1.read_unread, harg2.read_unread, harg4.read_unread,
    View.ld_unit_zero (S := S10000x64) origin, View.ld_unit_zero (S := S1x1) origin]

/-- and the output block at the quotient of that updated scratch. -/
theorem out_last (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x64 .f32) (x1 : Vec F S10000x64 .f32) (xs0 : Vec F S1x1 .f32) :
    out0_C_2 c i arg1 harg1 arg2 harg2 arg3 harg3 arg4 harg4 hc0 hc1 x0 x1 xs0 = k0_pay3 (k0_pay2 x0 x1 xs0) := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero origin, View.readCov_unit_zero (S := S1x1) _ origin]
  simp only [View.readAt_eq_ld, harg1.read_unread, harg2.read_unread, harg4.read_unread,
    View.ld_unit_zero (S := S10000x64) origin, View.ld_unit_zero (S := S1x1) origin]

end Cert.KernelIdeal.Pieces

end
-- ==== Proof.PointValues.lean ====
/-
  What each grid point leaves, in terms of the body's three values, at any float instance.

  Write `x₀ t`, `x₁ t` for the two input blocks at grid point `t`. The contents the scratch and the output block
  hold after each point are defined by recursion on the point, by cases on where the point sits in the grid. Read
  through the values found for each case:
    · after the first point the scratch holds the update of the zero entry by `x₀ 0`, `x₁ 0`;
    · after any later point `t` it holds the update, by `x₀ t`, `x₁ t`, of what it held after point `t - 1`
      (the middle points and the last point agree on this);
    · after the last point the output block holds the quotient of that same updated scratch.
-/
import proofs.«161028_j78434692760202_1_alg».proof.Proof.Pieces

set_option maxRecDepth 16384

noncomputable section

open Idealize.ShloMosaic Idealize.ShloMosaic.TcCoe Idealize.SL.Sem

namespace Cert.KernelIdeal.PointValues

open Cert.KernelIdeal Cert.KernelIdeal.Gen Cert.KernelIdeal.Pieces

variable {F : FTy → Type} [FloatOps F]
variable (m : (ℓ : Loc nD τ sig) → Buf (Elt F) ℓ)

/-- The two input blocks at grid point `t`, at their literal extents. -/
abbrev blkA (c : Dev nD) (t : Fin cfg0.N) : Vec F S10000x64 .f32 := iblk m c 0 t
abbrev blkB (c : Dev nD) (t : Fin cfg0.N) : Vec F S10000x64 .f32 := iblk m c 1 t

/-- What the scratch holds after point `n`. -/
abbrev scratchAfter (c : Dev nD) (n : ℕ) (hn : n < cfg0.N) : Vec F S1x1 .f32 := (outsAt0 m c n hn).2

/-- What the output block holds after point `n`. -/
abbrev outAfter (c : Dev nD) (n : ℕ) (hn : n < cfg0.N) : Vec F S1x1 .f32 := (outsAt0 m c n hn).1

/-- After the first point: the update of the zero entry. -/
theorem scratch_at_first (c : Dev nD) (t : Fin cfg0.N) (h0 : t.val % 200 = 0) (h1 : ¬t.val % 200 = 199) :
    scratchAfter m c t.val t.isLt = k0_pay2 (blkA m c t) (blkB m c t) (k0_pay1 (F := F)) := by
  show (outsAt0 m c t.val t.isLt).2 = _
  rw [outsAt0_A m c t h0 h1]
  dsimp only
  exact scratch_first c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- After a later point: the update of what the point before left. -/
theorem scratch_at_later (c : Dev nD) (t : Fin cfg0.N) (h0 : ¬t.val % 200 = 0) :
    scratchAfter m c t.val t.isLt
      = k0_pay2 (blkA m c t) (blkB m c t) (scratchAfter m c (t.val - 1) (Nat.lt_of_le_of_lt (Nat.sub_le _ _) t.isLt)) := by
  show (outsAt0 m c t.val t.isLt).2 = _
  by_cases h1 : t.val % 200 = 199
  · rw [outsAt0_C m c t h0 h1]
    dsimp only
    exact scratch_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact scratch_mid c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- After the last point: the output block holds the quotient of the scratch as that point leaves it. -/
theorem out_at_last (c : Dev nD) (t : Fin cfg0.N) (h0 : ¬t.val % 200 = 0) (h1 : t.val % 200 = 199) :
    outAfter m c t.val t.isLt = k0_pay3 (scratchAfter m c t.val t.isLt) := by
  show (outsAt0 m c t.val t.isLt).1 = k0_pay3 (outsAt0 m c t.val t.isLt).2
  rw [outsAt0_C m c t h0 h1]
  dsimp only
  rw [scratch_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2]
  exact out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2

end Cert.KernelIdeal.PointValues

end
-- ==== Proof.Payload.lean ====
/-
  The body's three values, read over the extended reals.

  Over the extended reals the body's update of its one-entry scratch, from input blocks `x₀`, `x₁` of 10000 rows
  and 64 columns and the scratch's old entry `s`, is

      s + ∑ q < 10000, sqrt (∑ d < 64, (x₀ q d - x₁ q d)²):

  the lane sum over the 64 columns is a finite sum, the square root the extended reals' own, the 10000 roots are
  laid out as one row and summed, the sum is taken out as a scalar, spread over the one-entry block and added to
  the old entry. The changes of layout on the way (10000 → 1 × 10000, 1 → 1 × 1, 1 × 1 → 1 × 1) move no value:
  each is read at an index by one small lemma over literal extents. The reset stores the zero entry, and the last
  point's value divides the entry by the float 2000000.0.
-/
import proofs.«161028_j78434692760202_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx Idealize.SL.Sem

namespace Cert.KernelIdeal.Payload

open Cert.KernelIdeal Cert.KernelIdeal.Gen

/-- The one index of a one-entry block. -/
abbrev o : S1x1.Idx := ix2 (0 : Fin 1) (0 : Fin 1)

/-- A one-entry block has one index. -/
theorem idx_eq_o (y : S1x1.Idx) : y = o :=
  funext fun a => Fin.ext (by
    match a with
    | ⟨0, _⟩ => exact Nat.lt_one_iff.mp (y 0).isLt
    | ⟨1, _⟩ => exact Nat.lt_one_iff.mp (y 1).isLt)

/-- The lane sum along a row's 64 columns, at row `q`. -/
theorem rowSum_apply (v : FVec Ideal S10000x64 .f32) (hφ : FKind.Formats FTy.f32)
    (hacc : (0x00000000#32 : BitVec FTy.f32.bits) = FKind.add.neutral .f32 hφ) (q : Fin 10000) :
    multiReduction .add [1] S10000 v 0x00000000#32 reduces_S10000x64_S10000 hφ hacc (ix1 q) = ∑ d : Fin 64, v (ix2 q d) :=
  (Ideal.multiReduction_add_single v 0x00000000#32 reduces_S10000x64_S10000 hφ hacc (ix1 q)).trans
    (Finset.sum_congr rfl fun d _ => congrArg v (funext fun a => Fin.ext (by match a with | ⟨0, _⟩ => rfl | ⟨1, _⟩ => rfl)))

/-- 10000 values laid out as one row of 10000: entry `(0, q)` is value `q`. -/
theorem asRow_apply (w : FVec Ideal S10000 .f32) (q : Fin 10000) :
    shapeCast S1x10000 w shapeCasts_S10000_S1x10000 (ix2 (0 : Fin 1) q) = w (ix1 q) :=
  (shapeCast_addUnit_apply ![10000] w shapeCasts_S10000_S1x10000 (ix2 (0 : Fin 1) q)).trans
    (congrArg w (funext fun a => Fin.ext (by match a with | ⟨0, _⟩ => rfl)))

/-- The lane sum along the one row's 10000 entries. -/
theorem colSum_apply (u : FVec Ideal S1x10000 .f32) (hφ : FKind.Formats FTy.f32)
    (hacc : (0x00000000#32 : BitVec FTy.f32.bits) = FKind.add.neutral .f32 hφ) :
    multiReduction .add [1] S1 u 0x00000000#32 reduces_S1x10000_S1 hφ hacc (ix1 (0 : Fin 1)) = ∑ q : Fin 10000, u (ix2 (0 : Fin 1) q) :=
  (Ideal.multiReduction_add_single u 0x00000000#32 reduces_S1x10000_S1 hφ hacc (ix1 (0 : Fin 1))).trans
    (Finset.sum_congr rfl fun q _ => congrArg u (funext fun a => Fin.ext (by match a with | ⟨0, _⟩ => rfl | ⟨1, _⟩ => rfl)))

/-- One value laid out as a one-entry block. -/
theorem asBlock_apply (z : FVec Ideal S1 .f32) :
    shapeCast S1x1 z shapeCasts_S1_S1x1 o = z (ix1 (0 : Fin 1)) :=
  (shapeCast_addUnit_apply ![1] z shapeCasts_S1_S1x1 o).trans
    (congrArg z (funext fun a => Fin.ext (by match a with | ⟨0, _⟩ => rfl)))

/-- The squared difference of two blocks, summed along a row's 64 columns, rooted, summed over the block's 10000 rows. -/
def blockTerm (x0 x1 : Vec Ideal S10000x64 .f32) : EReal :=
  ∑ q : Fin 10000, Ideal.sqrt (∑ d : Fin 64, (x0 (ix2 q d) - x1 (ix2 q d)) * (x0 (ix2 q d) - x1 (ix2 q d)))

/-- The update of the scratch: the old entry plus the block's term. -/
theorem step_apply (x0 x1 : Vec Ideal S10000x64 .f32) (s : Vec Ideal S1x1 .f32) :
    k0_pay2 (F := Ideal) x0 x1 s o = s o + blockTerm x0 x1 := by
  unfold k0_pay2 blockTerm
  dsimp only
  refine (congrFun (shapeCast_self _ _) o).trans ?_
  show s o + _ = _
  refine congrArg (s o + ·) ?_
  unfold extractAt
  refine (congrArg (shapeCast S1x1 _ shapeCasts_S1_S1x1) (idx_eq_o _)).trans ?_
  refine (asBlock_apply _).trans ?_
  refine (colSum_apply _ _ _).trans ?_
  refine Finset.sum_congr rfl fun q _ => ?_
  refine (asRow_apply _ q).trans ?_
  show Ideal.sqrt _ = _
  refine congrArg Ideal.sqrt ?_
  refine (rowSum_apply _ _ _ q).trans ?_
  rfl

/-- The reset stores the zero entry. -/
theorem reset_apply : k0_pay1 (F := Ideal) o = 0 := by
  unfold k0_pay1
  refine (congrFun (shapeCast_self _ _) o).trans ?_
  show Ideal.ofBits .f32 0x00000000#32 = 0
  exact Ideal.ofBits_zero_f32

/-- The last point's value: the entry divided by the float 2000000.0. -/
theorem quotient_apply (v : Vec Ideal S1x1 .f32) :
    k0_pay3 (F := Ideal) v o = Ideal.div (v o) (Ideal.ofBits .f32 0x49F42400#32) := by
  unfold k0_pay3
  rfl

end Cert.KernelIdeal.Payload

end
-- ==== Proof.Blocks.lean ====
/-
  The input blocks, read at an entry.

  At grid point `t` each input window holds rows `t·10000 … t·10000 + 9999` of its array, all 64 columns: the
  window's index map sends the point to block `(t, 0)`, a block is 10000 × 64, and a block's coordinate is always
  index × size + the coordinate inside the block. So entry `(q, d)` of the block is entry `(t·10000 + q, d)` of the
  array as the region finds it, which is the argument array itself (no host operation precedes the region).
-/
import proofs.«161028_j78434692760202_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem

namespace Cert.KernelIdeal.Blocks

open Cert.KernelIdeal Cert.KernelIdeal.Gen

variable {F : FTy → Type} [FloatOps F]
variable (m : (ℓ : Loc nD τ sig) → Buf (Elt F) ℓ)

/-- The grid has 200 points. -/
theorem N_eq : cfg0.N = 200 := N_0

/-- Row `q` of the block at point `t`, as a row of the array. -/
def rowOf (t : Fin cfg0.N) (q : Fin 10000) : Fin 2000000 :=
  ⟨t.val * 10000 + q.val, by have h : t.val < 200 := lt_of_lt_of_eq t.isLt N_eq; have := q.isLt; omega⟩

theorem rowOf_val (t : Fin cfg0.N) (q : Fin 10000) : (rowOf t q).val = t.val * 10000 + q.val := rfl

/-- Both input windows' index maps send point `t` to block `(t, 0)`: decided over the grid. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry `(q, d)` of the first input's block at point `t` is entry `(t·10000 + q, d)` of the first argument. -/
theorem blk0_apply (c : Dev nD) (t : Fin cfg0.N) (q : Fin 10000) (d : Fin 64) :
    (iblk m c 0 t : Vec F S10000x64 .f32) (ix2 q d)
      = (m ((c : Thread nD τ).loc main_arg0) : Vec F S2000000x64 .f32) (ix2 (rowOf t q) d) := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 10000 + 1 * q.val = t.val * 10000 + q.val; rw [(index0 t).1]; omega
  | ⟨1, _⟩ => show win0_0.index t 1 * 64 + 1 * d.val = d.val; rw [(index0 t).2]; omega

/-- The same for the second input and the second argument. -/
theorem blk1_apply (c : Dev nD) (t : Fin cfg0.N) (q : Fin 10000) (d : Fin 64) :
    (iblk m c 1 t : Vec F S10000x64 .f32) (ix2 q d)
      = (m ((c : Thread nD τ).loc main_arg1) : Vec F S2000000x64 .f32) (ix2 (rowOf t q) d) := by
  unfold iblk
  rw [View.read_apply]
  show V m c main_arg1 _ = m ((c : Thread nD τ).loc main_arg1) _
  rw [V_main_arg1]
  congr 1
  funext a
  apply Fin.ext
  match a with
  | ⟨0, _⟩ => show win0_1.index t 0 * 10000 + 1 * q.val = t.val * 10000 + q.val; rw [(index1 t).1]; omega
  | ⟨1, _⟩ => show win0_1.index t 1 * 64 + 1 * d.val = d.val; rw [(index1 t).2]; omega

end Cert.KernelIdeal.Blocks

end
-- ==== Proof.Spec.lean ====
/-
  The mathematics both programs compute, over the extended reals, with no program in sight.

  For two arrays `a`, `b` of 2000000 rows and 64 columns, the LENGTH of row `r` of their difference is
  `sqrt (∑ d, (a r d - b r d)²)`, and the result is the sum of the 2000000 row lengths divided by the
  float `2000000.0`.

  The reference sums the row lengths in one reduction over all rows. The kernel walks the rows in 200
  consecutive stretches of 10000, adding each stretch's sum to a running total. The two meet through the
  running total itself: after the first `k` rows it is the PREFIX SUM `∑ r < k` of the row lengths, a stretch of
  `n` further rows adds `∑ q < n` of the lengths of rows `k + q` (addition on the extended reals is
  commutative and associative, so no finiteness is needed), and the prefix sum over all 2000000 rows is the
  reference's sum.
-/
import Idealize.ShloMosaic.PureOps.Ideal
import Idealize.ShloMosaic.Lib.ValueIdx

noncomputable section

open scoped BigOperators
open Idealize.ShloMosaic Idealize.ShloMosaic.ValueIdx

namespace Cert.MeanRowNorm

/-- An array of 2000000 rows and 64 columns of extended reals. -/
abbrev Arr : Type := (⟨2, ![2000000, 64]⟩ : Shape).Idx → EReal

/-- The Euclidean length of row `r` of `a - b`: the square root of the sum of the 64 squared differences. -/
def rowNorm (a b : Arr) (r : Fin 2000000) : EReal :=
  Ideal.sqrt (∑ d : Fin 64, (a (ix2 r d) - b (ix2 r d)) * (a (ix2 r d) - b (ix2 r d)))

/-- The same with the row a natural number: zero past the last row. -/
def rowNormN (a b : Arr) (r : ℕ) : EReal := if h : r < 2000000 then rowNorm a b ⟨r, h⟩ else 0

theorem rowNormN_of_lt (a b : Arr) (r : ℕ) (h : r < 2000000) : rowNormN a b r = rowNorm a b ⟨r, h⟩ := dif_pos h

/-- The sum of the lengths of the first `k` rows. -/
def prefixSum (a b : Arr) (k : ℕ) : EReal := ∑ r ∈ Finset.range k, rowNormN a b r

theorem prefixSum_zero (a b : Arr) : prefixSum a b 0 = 0 := Finset.sum_range_zero _

/-- A stretch of `n` rows after the first `k` adds its own sum to the prefix sum. -/
theorem prefixSum_add (a b : Arr) (k n : ℕ) :
    prefixSum a b (k + n) = prefixSum a b k + ∑ q ∈ Finset.range n, rowNormN a b (k + q) :=
  Finset.sum_range_add _ _ _

/-- A stretch's sum, with the row inside the stretch an index below `n`. -/
theorem stretch_sum (a b : Arr) (k n : ℕ) :
    ∑ q : Fin n, rowNormN a b (k + q.val) = ∑ q ∈ Finset.range n, rowNormN a b (k + q) :=
  Fin.sum_univ_eq_sum_range (fun q => rowNormN a b (k + q)) n

/-- The prefix sum over every row is the sum over the rows. -/
theorem prefixSum_all (a b : Arr) : prefixSum a b 2000000 = ∑ r : Fin 2000000, rowNorm a b r := by
  unfold prefixSum
  rw [← Fin.sum_univ_eq_sum_range (fun r => rowNormN a b r) 2000000]
  exact Finset.sum_congr rfl fun r _ => rowNormN_of_lt a b r.val r.isLt

/-- The result: the mean row length, the divisor the float `2000000.0` as both programs write it. -/
def meanNorm (a b : Arr) : EReal :=
  Ideal.div (∑ r : Fin 2000000, rowNorm a b r) (Ideal.ofBits .f32 0x49F42400#32)

end Cert.MeanRowNorm

end
-- ==== Proof.Running.lean ====
/-
  The running total, over the extended reals.

  The block the kernel holds at grid point `t` is rows `t·10000 … t·10000 + 9999` of the arguments, so the block's
  contribution to the scratch is the sum of the lengths of exactly those rows of `a - b`. By induction on the point,
  the scratch after point `n` holds the sum of the lengths of the first `(n + 1)·10000` rows: the first point adds
  its stretch to the zero entry, each later point adds its stretch to what the point before left, and a prefix sum
  extended by a stretch is the longer prefix sum. After the last point, `n = 199`, that is the sum over all 2000000
  rows, and the output block holds its quotient by the float 2000000.0: the mean row length.
-/
import proofs.«161028_j78434692760202_1_alg».proof.Proof.PointValues
import proofs.«161028_j78434692760202_1_alg».proof.Proof.Payload
import proofs.«161028_j78434692760202_1_alg».proof.Proof.Blocks
import proofs.«161028_j78434692760202_1_alg».proof.Proof.Spec

set_option maxRecDepth 16384

noncomputable section

open scoped BigOperators
open Idealize.ShloMosaic Idealize.ShloMosaic.TcCoe Idealize.ShloMosaic.ValueIdx Idealize.SL.Sem

namespace Cert.KernelIdeal.Running

open Cert.KernelIdeal Cert.KernelIdeal.Gen Cert.KernelIdeal.PointValues Cert.KernelIdeal.Payload Cert.KernelIdeal.Blocks
open Cert.MeanRowNorm

variable (m : (ℓ : Loc nD τ sig) → Buf (Elt Ideal) ℓ)

/-- The two argument arrays on core `c`. -/
abbrev argA (c : Dev nD) : Arr := m ((c : Thread nD τ).loc main_arg0)
abbrev argB (c : Dev nD) : Arr := m ((c : Thread nD τ).loc main_arg1)

/-- The block's contribution at point `t` is the stretch of 10000 row lengths that starts at row `k = t·10000`. -/
theorem blockTerm_eq (c : Dev nD) (t : Fin cfg0.N) (k : ℕ) (hk : k = t.val * 10000) :
    blockTerm (blkA m c t) (blkB m c t) = ∑ q ∈ Finset.range 10000, rowNormN (argA m c) (argB m c) (k + q) := by
  subst hk
  rw [← stretch_sum]
  unfold blockTerm
  refine Finset.sum_congr rfl fun q _ => ?_
  refine Eq.trans ?_ (rowNormN_of_lt (argA m c) (argB m c) _ (rowOf t q).isLt).symm
  unfold rowNorm
  refine congrArg Ideal.sqrt (Finset.sum_congr rfl fun d _ => ?_)
  have ea : blkA m c t (ix2 q d) = argA m c (ix2 (rowOf t q) d) := blk0_apply m c t q d
  have eb : blkB m c t (ix2 q d) = argB m c (ix2 (rowOf t q) d) := blk1_apply m c t q d
  rw [ea, eb]

/-- The scratch after point `n` holds the sum of the lengths of the first `(n + 1)·10000` rows. -/
theorem scratch_eq (c : Dev nD) : ∀ (n : ℕ) (hn : n < cfg0.N),
    scratchAfter m c n hn o = prefixSum (argA m c) (argB m c) ((n + 1) * 10000)
  | 0, hn => by
    have e := scratch_at_first m c ⟨0, hn⟩ rfl (by decide : ¬(0 : ℕ) % 200 = 199)
    refine ((congrFun e o).trans (step_apply (blkA m c ⟨0, hn⟩) (blkB m c ⟨0, hn⟩) (k0_pay1 (F := Ideal)))).trans ?_
    rw [reset_apply, zero_add, blockTerm_eq m c ⟨0, hn⟩ 0 (Nat.zero_mul _).symm,
      show (0 + 1) * 10000 = 0 + 10000 from rfl, prefixSum_add, prefixSum_zero, zero_add]
  | n + 1, hn => by
    have hN : n + 1 < 200 := lt_of_lt_of_eq hn N_eq
    have h0 : ¬(⟨n + 1, hn⟩ : Fin cfg0.N).val % 200 = 0 := by dsimp only; omega
    have ih := scratch_eq c n (Nat.lt_of_succ_lt hn)
    have e := scratch_at_later m c ⟨n + 1, hn⟩ h0
    refine ((congrFun e o).trans (step_apply (blkA m c ⟨n + 1, hn⟩) (blkB m c ⟨n + 1, hn⟩) _)).trans ?_
    rw [blockTerm_eq m c ⟨n + 1, hn⟩ ((n + 1) * 10000) rfl,
      show (n + 1 + 1) * 10000 = (n + 1) * 10000 + 10000 by ring, prefixSum_add]
    exact congrArg (· + _) ih

/-- After the last point the output block holds the mean row length. -/
theorem out_final (c : Dev nD) (t : Fin cfg0.N) (ht : t.val = 199) :
    outAfter m c t.val t.isLt = fun _ => meanNorm (argA m c) (argB m c) := by
  funext y
  obtain rfl := idx_eq_o y
  rw [out_at_last m c t (by omega) (by omega), quotient_apply, scratch_eq m c t.val t.isLt]
  unfold meanNorm
  rw [← prefixSum_all, show (t.val + 1) * 10000 = 2000000 by omega]

end Cert.KernelIdeal.Running

end
-- ==== Proof.Result.lean ====
/-
  The kernel's run, read: the result is the mean row length.

  The output block is stored at the last grid point only, and written back to its one-entry array there only; that
  point's block is the whole array. So after the region the array holds what the last point left in the output
  block, the mean row length of the arguments. The host then reshapes the one-entry array to a scalar, which moves
  no value: the result buffer holds the mean, and the two argument arrays are as they were.
-/
import proofs.«161028_j78434692760202_1_alg».proof.Proof.Running
import Idealize.ShloMosaic.Lib.Pipeline.Value
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen Cert.KernelIdeal.PointValues Cert.KernelIdeal.Payload Cert.KernelIdeal.Blocks
open Cert.KernelIdeal.Running Cert.MeanRowNorm

variable (m : (ℓ : Loc nD τ sig) → Buf (Elt Ideal) ℓ) (ρ : Dev nD → PrngReg)

/-- The one-entry output array holding the mean row length. -/
abbrev meanBlock (c : Dev nD) : Buf (Elt Ideal) ((c : Thread nD τ).loc main_v0) := fun _ => meanNorm (argA m c) (argB m c)

/-- The last grid point. -/
abbrev tLast : Fin cfg0.N := ⟨199, lt_of_lt_of_eq (by decide : 199 < 200) N_eq.symm⟩

/-- The one write-back, at the last point, writes the mean. -/
theorem flushed_eq (c : Dev nD) (t : Fin cfg0.N) (hf : (cfg0.win 2).flush t = true) :
    (dats m 0 c).flushed 2 t = ((cfg0.win 2).blk t).view.read (Elt Ideal) (meanBlock m c) := by
  have hN := N_eq
  have h199 : t.val = 199 := by have := (flush0_2 t).mp hf; have := t.isLt; omega
  show (cfg0.win 2).cut (grid0.coords t) ((dats m 0 c).after 2 t) = _
  rw [after0_2]
  have e : (outsAt0 m c t.val t.isLt).1 = fun _ => meanNorm (argA m c) (argB m c) := out_final m c t h199
  rw [e]
  rfl

/-- The host's reshape of the one-entry array to a scalar. -/
theorem tail_eq (c : Dev nD) (hfin : (dats m 0 c).arrAt 2 cfg0.N = meanBlock m c) :
    Pipeline.afterTail₀ cfgs (dats m) 0 (V0 m) [hostOps1] c main_v1 = fun _ => meanNorm (argA m c) (argB m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = meanBlock m c := (Pipeline.withArrays_arr spec0 launch0.win.arr_inj c _ _ 2).trans hfin
  rw [e]
  rfl

/-- The last point's block is the whole one-entry array, so after the run the array holds the mean. -/
theorem final_out (c : Dev nD) : (dats m 0 c).arrAt 2 cfg0.N = meanBlock m c :=
  (dats m 0 c).arrAt_eq_of_cover 2 (meanBlock m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- The result buffer bypasses the region: it is unscoped and no window's array. -/
theorem result_bypasses : main_v1 ∈ Pipeline.restRefs sig (cfgs 0).spec :=
  Pipeline.mem_restRefs_of main_v1 (by decide) (by decide)

/-- The run, read: every weakly fair execution ends with the result at the mean row length of the arguments, and the
    arguments unchanged. -/
theorem run : θ_run defs (onTc (τ := τ) (main (F := Ideal))) ⟨m, fun _ => 0, ρ⟩ fun r => ∀ c : Dev nD,
      r.2.mem ((c.tc : Thread nD τ).loc main_v1) = (fun _ => meanNorm (argA m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 result_bypasses).trans (tail_eq m c (final_out m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.LibRankOneSum.lean ====
/-
  A sum over the indices of a rank-one shape is the sum over their one coordinate.

  An index of a shape of rank one and extent `n` is a function from the one axis to `Fin n`; it is determined by its
  value there. So the index set is in bijection with `Fin n`, and a finite sum over it, in any commutative monoid,
  is the sum over `r < n` of the summand at the index with coordinate `r`. This is the step that turns a total
  reduction of a vector (a sum over every index of a rank-one array) into an ordinary sum over `Fin n`.
-/
import Idealize.ShloMosaic.Lib.ValueIdx

noncomputable section

open scoped BigOperators
open Idealize.ShloMosaic Idealize.ShloMosaic.ValueIdx

namespace Cert.LibRankOneSum

/-- An index of rank one is its one coordinate. -/
def idxEquiv1 {n : Nat} : (⟨1, ![n]⟩ : Shape).Idx ≃ Fin n where
  toFun j := j 0
  invFun r := ix1 r
  left_inv j := (eq_ix1 j).symm
  right_inv _ := rfl

/-- A sum over the indices of rank one is the sum over the coordinate. -/
theorem sum_idx1 {M : Type*} [AddCommMonoid M] {n : Nat} (f : (⟨1, ![n]⟩ : Shape).Idx → M) :
    ∑ j, f j = ∑ r : Fin n, f (ix1 r) :=
  (Equiv.sum_comp idxEquiv1.symm f).symm

end Cert.LibRankOneSum

end
-- ==== Proof.RefValue.lean ====
/-
  The reference, read: its result is the mean row length of the specification.

  The reference subtracts the two arrays, squares, sums each row's 64 squares from zero, takes the square root of
  each of the 2000000 row sums, sums those from zero, and divides by the float 2000000.0. Read at an index, the
  inner sum at row `r` is `0 + ∑ d, (a r d - b r d)²`, its root the row's length, the outer sum `0 +` the sum of
  the lengths over the rank-one index set, which is the sum over the rows `r < 2000000` (an index of rank one IS
  its one coordinate), and the quotient the specification's.
-/
import proofs.«161028_j78434692760202_1_alg».proof.Proof.Gen.ReferenceIdeal.Read
import proofs.«161028_j78434692760202_1_alg».proof.Proof.Spec
import proofs.«161028_j78434692760202_1_alg».proof.Proof.LibRankOneSum
import Idealize.ShloMosaic.Lib.ValueIdx
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Read Cert.MeanRowNorm Cert.LibRankOneSum

/-- The column the inner sum reads at row `r`, term `k`, is entry `(r, k)`. -/
theorem idx_row (r : Fin 2000000) (k : Fin 64) : idx_main_v2 (ix1 r) k = ix2 r k :=
  funext fun a => Fin.ext (by match a with | ⟨0, _⟩ => rfl | ⟨1, _⟩ => rfl)

/-- The square root of the inner sum at row `r` is that row's length. -/
theorem root_at_row (a b : Arr) (r : Fin 2000000) : val_main_v3 (F := Ideal) a b (ix1 r) = rowNorm a b r := by
  rw [val_main_v3_apply, val_main_v2_apply, val_main_cst_apply]
  unfold rowNorm
  simp only [idx_row, val_main_v1_apply, val_main_v0_apply, Ideal.hostUnary_sqrt_def, Ideal.mulf_def, Ideal.subf_def,
    Ideal.ofBits_def, Ideal.ofBits_zero_f32, zero_add]

/-- The reference's result is the mean row length. -/
theorem result_eq (a b : Arr) : val_main_v5 (F := Ideal) a b = fun _ => meanNorm a b := by
  funext i
  rw [val_main_v5_apply, val_main_v4_apply, val_main_cst_0_apply, val_main_cst_1_apply, sum_idx1]
  unfold meanNorm
  simp only [root_at_row, Ideal.hostDivf_def, Ideal.ofBits_def, Ideal.ofBits_zero_f32, zero_add]

end Cert.ReferenceIdeal.RefValue

end
-- ==== Proof.lean ====
/-
  Both programs compute the mean, over the 2000000 rows, of the Euclidean length of a row of `A - B` (64 columns):

      (∑ r < 2000000, sqrt (∑ d < 64, (A r d - B r d)²)) / 2000000.

  The reference takes the 2000000 row lengths and sums them in one reduction. The kernel walks the rows in 200
  consecutive blocks of 10000, keeps a running total in a one-entry scratch (zeroed at the first block, each block's
  sum of row lengths added to it), and at the last block stores the total divided by the float 2000000.0, the same
  float the reference divides by. Over the extended reals the square root and the division are the same functions in
  both programs, and the two sums differ only in how the rows are grouped, which addition (commutative and
  associative on the extended reals, infinities included) does not see: the running total after block `n` is the
  sum over the first `(n + 1)·10000` rows, and after the last block the sum over all of them. No input needs to be
  finite for this. The idealization rewrote no operation of the kernel, so there is nothing to preserve.
-/
import proofs.«161028_j78434692760202_1_alg».proof.Defs
import proofs.«161028_j78434692760202_1_alg».proof.Proof.Gen.Kernel
import proofs.«161028_j78434692760202_1_alg».proof.Proof.Gen.Kernel.Skeleton
import proofs.«161028_j78434692760202_1_alg».proof.Proof.Gen.Kernel.Launch
import proofs.«161028_j78434692760202_1_alg».proof.Proof.Gen.Kernel.Points
import proofs.«161028_j78434692760202_1_alg».proof.Proof.Gen.Kernel.Frame
import proofs.«161028_j78434692760202_1_alg».proof.Proof.Gen.KernelIdeal
import proofs.«161028_j78434692760202_1_alg».proof.Proof.Gen.KernelIdeal.Skeleton
import proofs.«161028_j78434692760202_1_alg».proof.Proof.Gen.KernelIdeal.Launch
import proofs.«161028_j78434692760202_1_alg».proof.Proof.Gen.KernelIdeal.Points
import proofs.«161028_j78434692760202_1_alg».proof.Proof.Gen.KernelIdeal.Frame
import proofs.«161028_j78434692760202_1_alg».proof.Proof.Gen.ReferenceIdeal
import proofs.«161028_j78434692760202_1_alg».proof.Proof.Gen.ReferenceIdeal.Run
import proofs.«161028_j78434692760202_1_alg».proof.Proof.Gen.ReferenceIdeal.Read
import proofs.«161028_j78434692760202_1_alg».proof.Proof.Gen.Pre_finite_inputs
import proofs.«161028_j78434692760202_1_alg».proof.Proof.Result
import proofs.«161028_j78434692760202_1_alg».proof.Proof.RefValue
import Idealize.ShloMosaic.Adequacy
import Idealize.ShloMosaic.Init

noncomputable section

namespace Cert.Proof

open Idealize.ShloMosaic Idealize.SL.Sem

/-- The kernel runs and leaves its arguments alone, at the word level and over the extended reals. -/
theorem frame_kernel : Cert.frame_Kernel := fun m ρ _ => Cert.Kernel.Gen.frame m ρ
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end with the mean row length of arguments that agree. -/
theorem algebraic : Cert.algebraic_KernelIdeal_ReferenceIdeal := by
  intro m ρ m' ρ' _ hagree
  refine ⟨fun c _ => Cert.MeanRowNorm.meanNorm (Cert.KernelIdeal.Running.argA m c) (Cert.KernelIdeal.Running.argB m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
